-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x4096 .f32) (main_arg5 : FVec F S4096 .f32) (main_arg6 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S1024x4096 .f32) (main_arg4 : FVec F S1024x4096 .f32) (main_arg5 : FVec F S4096 .f32) (main_arg6 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S8192x1024 : Shape := ⟨2, ![8192, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S1024x4096, .bf16⟩
  | .hbm, ⟨10, _⟩ => ⟨S1024x4096, .bf16⟩
  | .hbm, ⟨11, _⟩ => ⟨S8192x1024, .f32⟩
  | .hbm, ⟨12, _⟩ => ⟨S8192x1024, .f32⟩
  | .hbm, ⟨13, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_3072_S256x1024 : S256x4096.Slices ![0, 3072] S256x1024
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Spec.lean ====
/-
  The LSTM cell, as functions of the argument arrays on the extended reals.

  For a batch row `r` and a gate column `j` the pre-activation is
      pre r j = (Σₖ x[r,k]·Wx[k,j] + Σₖ h[r,k]·Wh[k,j]) + (bx[j] + bh[j]),
  the four gates are the four quarters of the 4096 columns, in the order input, forget, cell, output, and for a
  hidden column `q`
      o[r,q]     = σ(pre r (3072+q))
      c'[r,q]    = σ(pre r (1024+q)) · c[r,q] + σ(pre r q) · tanh(pre r (2048+q))
      h'[r,q]    = o[r,q] · tanh(c'[r,q])
  with σ z = 1 / (1 + e^(−z)). Nothing here mentions a program: both programs are shown to compute these.
-/
import Idealize.ShloMosaic.PureOps.Ideal
import Idealize.ShloMosaic.PureOps.Ideal.Laws
import Idealize.ShloMosaic.Lib.ValueIdx
import Idealize.ShloMosaic.Lib.IdealHost

noncomputable section

namespace Cert.LstmCell

open Idealize.ShloMosaic Idealize.ShloMosaic.ValueIdx

/-- Activations: x, h, c and the three results, batch × hidden. -/
abbrev Act : Shape := ⟨2, ![8192, 1024]⟩
/-- A weight array: contraction × the four gates' columns. -/
abbrev Wgt : Shape := ⟨2, ![1024, 4096]⟩
/-- A bias: one entry per gate column. -/
abbrev Bia : Shape := ⟨1, ![4096]⟩
/-- The pre-activations: batch × the four gates' columns. -/
abbrev Pre : Shape := ⟨2, ![8192, 4096]⟩

/-- Column `q` of the gate whose quarter starts at `o`. -/
abbrev col (o : Nat) (q : Fin 1024) (ho : o + 1024 ≤ 4096 := by decide) : Fin 4096 :=
  ⟨o + q.val, by have := q.isLt; omega⟩

variable (x h c : FVec Ideal Act .f32) (wx wh : FVec Ideal Wgt .f32) (bx bh : FVec Ideal Bia .f32)

/-- The pre-activation of batch row `r` at gate column `j`: the two products' entries, then the summed biases. -/
def pre (r : Fin 8192) (j : Fin 4096) : EReal :=
  ((∑ k : Fin 1024, x (ix2 r k) * wx (ix2 k j)) + ∑ k : Fin 1024, h (ix2 r k) * wh (ix2 k j))
    + (bx (ix1 j) + bh (ix1 j))

/-- The output gate. -/
def outGate (i : Act.Idx) : EReal :=
  Ideal.logistic (pre x h wx wh bx bh (i 0) (col 3072 (i 1)))

/-- The new cell state: forget gate times the old state plus input gate times the candidate. -/
def cellNew (i : Act.Idx) : EReal :=
  Ideal.logistic (pre x h wx wh bx bh (i 0) (col 1024 (i 1))) * c i
    + Ideal.logistic (pre x h wx wh bx bh (i 0) (col 0 (i 1))) * Ideal.tanh (pre x h wx wh bx bh (i 0) (col 2048 (i 1)))

/-- The new hidden state. -/
def hidNew (i : Act.Idx) : EReal :=
  outGate x h wx wh bx bh i * Ideal.tanh (cellNew x h c wx wh bx bh i)

/-- The logistic function spelt out in the host's operations — one over one plus the exponential of the negation,
    the two ones being the binary word of 1.0 — is the logistic function, at every extended real. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

end Cert.LstmCell

end
-- ==== Proof.Gates.lean ====
/-
  The kernel's pre-activation block, read at an index.

  At a grid point the body holds a 256-row block of x and of h, the two whole weight arrays and the bias row, and
  forms  x·Wx + h·Wh + bias  over 256 × 4096. On the extended reals the narrowing casts are the identity and a
  product into a zero accumulator is the plain sum over the contracted axis, so entry (p, j) of that block is
      Σₖ xblk[p,k]·Wx[k,j] + Σₖ hblk[p,k]·Wh[k,j] + bias[0,j].
-/
import proofs.«407669_j62964220559530_3_alg».proof.Proof.Gen.KernelIdeal.Skeleton
import proofs.«407669_j62964220559530_3_alg».proof.Proof.Spec
import Idealize.ShloMosaic.Lib.Pipeline.Value
import Idealize.ShloMosaic.Lib.ValueIdx
import Idealize.ShloMosaic.PureOps.Ideal.Laws

noncomputable section

namespace Cert.LstmCell.Ker

open Idealize.ShloMosaic Idealize.ShloMosaic.ValueIdx Cert.KernelIdeal Cert.KernelIdeal.Gen Cert.LstmCell

/-! ### The operand indices of the block product: output (p, j), contraction k ↦ left (p, k), right (k, j) -/

theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_contr (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_contr (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A block product into the zero accumulator, at (p, j): the sum over the 1024 contracted positions. -/
theorem blockProduct_apply (a : FVec Ideal S256x1024 .bf16) (b : FVec Ideal S1024x4096 .bf16) (p : Fin 256) (j : Fin 4096) :
    matmul dot_S256x1024_S1024x4096_S256x4096_1_0_0_1_n_n none a b (constant (F := Ideal) S256x4096 .f32 0x00000000#32) (ix2 p j)
      = ∑ k : Fin 1024, a (ix2 p k) * b (ix2 k j) := by
  unfold matmul
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p j) ((contrEquiv1 dot_S256x1024_S1024x4096_S256x4096_1_0_0_1_n_n 1024 rfl rfl).symm k) = ix2 p k := funext fun d => Fin.ext (by
    match d with
    | ⟨0, _⟩ => exact lhs_row _ _
    | ⟨1, _⟩ => exact (lhs_contr _ _).trans hk)
  have er : dot_S256x1024_S1024x4096_S256x4096_1_0_0_1_n_n.rhsIdx (ix2 p j) ((contrEquiv1 dot_S256x1024_S1024x4096_S256x4096_1_0_0_1_n_n 1024 rfl rfl).symm k) = ix2 k j := funext fun d => Fin.ext (by
    match d with
    | ⟨0, _⟩ => exact (rhs_contr _ _).trans hk
    | ⟨1, _⟩ => exact rhs_col _ _)
  rw [el, er]

/-- The bias row broadcast down the block's rows: entry (p, j) is the row's entry j. -/
theorem biasRow_apply (v : FVec Ideal S1x4096 .f32) (hb : S1x4096.Broadcasts S256x4096) (p : Fin 256) (j : Fin 4096) :
    broadcastTo S256x4096 v hb (ix2 p j) = v (ix2 0 j) := by
  refine broadcastTo_apply v hb (ix2 p j) (ix2 0 j) ?_
  intro a
  match a with
  | ⟨0, _⟩ => rfl
  | ⟨1, _⟩ => rfl

/-- Entry (p, j) of the pre-activation block. -/
theorem gates_apply (P0 P1 : Vec Ideal S256x1024 .f32) (P2 P3 : Vec Ideal S1024x4096 .bf16) (P4 : Vec Ideal S1x4096 .f32)
    (p : Fin 256) (j : Fin 4096) :
    k0_pay1 (F := Ideal) P0 P1 P2 P3 P4 (ix2 p j)
      = ((∑ k : Fin 1024, (P0 (ix2 p k) : EReal) * (P2 (ix2 k j) : EReal))
          + ∑ k : Fin 1024, (P1 (ix2 p k) : EReal) * (P3 (ix2 k j) : EReal)) + (P4 (ix2 0 j) : EReal) := by
  have e2 : shapeCast S1024x4096 P2 shapeCasts_S1024x4096_S1024x4096 = P2 := shapeCast_self _ _
  have e3 : shapeCast S1024x4096 P3 shapeCasts_S1024x4096_S1024x4096 = P3 := shapeCast_self _ _
  have e4 : shapeCast S1x4096 P4 shapeCasts_S1x4096_S1x4096 = P4 := shapeCast_self _ _
  unfold k0_pay1
  rw [e2, e3, e4]
  show (matmul dot_S256x1024_S1024x4096_S256x4096_1_0_0_1_n_n none (truncf .bf16 P0 bitsLt_bf16_f32) P2 (constant (F := Ideal) S256x4096 .f32 0x00000000#32) (ix2 p j)
        + matmul dot_S256x1024_S1024x4096_S256x4096_1_0_0_1_n_n none (truncf .bf16 P1 bitsLt_bf16_f32) P3 (constant (F := Ideal) S256x4096 .f32 0x00000000#32) (ix2 p j))
      + broadcastTo S256x4096 P4 broadcasts_S1x4096_S256x4096 (ix2 p j) = _
  rw [blockProduct_apply, blockProduct_apply, biasRow_apply]
  rfl

/-- What the body loads at one grid point, against the whole arrays: the x, h and c loads are the 256 rows `row p` of
    their arrays, the weight loads are the weight arrays, and the bias load's one row is the entrywise sum of the biases. -/
structure RowBlock (P0 P1 P5 : Vec Ideal S256x1024 .f32) (P2 P3 : Vec Ideal S1024x4096 .bf16) (P4 : Vec Ideal S1x4096 .f32)
    (x h c : FVec Ideal Act .f32) (wx wh : FVec Ideal Wgt .f32) (bx bh : FVec Ideal Bia .f32) (row : Fin 256 → Fin 8192) : Prop where
  hx : ∀ (p : Fin 256) (k : Fin 1024), (P0 (ix2 p k) : EReal) = x (ix2 (row p) k)
  hh : ∀ (p : Fin 256) (k : Fin 1024), (P1 (ix2 p k) : EReal) = h (ix2 (row p) k)
  hc : ∀ (p : Fin 256) (q : Fin 1024), (P5 (ix2 p q) : EReal) = c (ix2 (row p) q)
  hwx : ∀ (k : Fin 1024) (j : Fin 4096), (P2 (ix2 k j) : EReal) = wx (ix2 k j)
  hwh : ∀ (k : Fin 1024) (j : Fin 4096), (P3 (ix2 k j) : EReal) = wh (ix2 k j)
  hb : ∀ j : Fin 4096, (P4 (ix2 0 j) : EReal) = bx (ix1 j) + bh (ix1 j)

/-- Entry (p, j) of the pre-activation block is the pre-activation of array row `row p` at column `j`. -/
theorem gates_pre {P0 P1 P5 : Vec Ideal S256x1024 .f32} {P2 P3 : Vec Ideal S1024x4096 .bf16} {P4 : Vec Ideal S1x4096 .f32}
    {x h c : FVec Ideal Act .f32} {wx wh : FVec Ideal Wgt .f32} {bx bh : FVec Ideal Bia .f32} {row : Fin 256 → Fin 8192}
    (hB : RowBlock P0 P1 P5 P2 P3 P4 x h c wx wh bx bh row) (p : Fin 256) (j : Fin 4096) :
    k0_pay1 (F := Ideal) P0 P1 P2 P3 P4 (ix2 p j) = pre x h wx wh bx bh (row p) j := by
  rw [gates_apply]
  simp only [hB.hx, hB.hh, hB.hwx, hB.hwh, hB.hb]
  rfl

end Cert.LstmCell.Ker

end
-- ==== Proof.BlockValues.lean ====
/-
  The three output blocks of one grid point, as the LSTM cell of Spec.lean on that point's rows.

  Each stored block is a pointwise expression of the pre-activation block read at a gate's column offset (and, for the
  cell and hidden states, of the old cell block). With the pre-activation block's entries identified (Gates.lean) the
  block entry (p, q) is the cell's value at array row `row p`, hidden column `q`.
-/
import proofs.«407669_j62964220559530_3_alg».proof.Proof.Gen.KernelIdeal.Value
import proofs.«407669_j62964220559530_3_alg».proof.Proof.Gates

noncomputable section

namespace Cert.LstmCell.Ker

open Idealize.ShloMosaic Idealize.ShloMosaic.ValueIdx Cert.KernelIdeal Cert.KernelIdeal.Gen Cert.LstmCell

variable {P0 P1 P5 : Vec Ideal S256x1024 .f32} {P2 P3 : Vec Ideal S1024x4096 .bf16} {P4 : Vec Ideal S1x4096 .f32}
  {x h c : FVec Ideal Act .f32} {wx wh : FVec Ideal Wgt .f32} {bx bh : FVec Ideal Bia .f32} {row : Fin 256 → Fin 8192}

/-! ### Where a block entry reads the pre-activation block: same row, the gate's column -/

theorem at_out6 (p : Fin 256) (q : Fin 1024) : Value.ix6_0 (ix2 p q) = ix2 p (col 3072 q) := funext fun a => by
  match a with | ⟨0, _⟩ => rfl | ⟨1, _⟩ => exact Fin.ext (Nat.add_comm _ _)
theorem at_out7 (p : Fin 256) (q : Fin 1024) : Value.ix7_0 (ix2 p q) = ix2 p (col 3072 q) := funext fun a => by
  match a with | ⟨0, _⟩ => rfl | ⟨1, _⟩ => exact Fin.ext (Nat.add_comm _ _)
theorem at_forget7 (p : Fin 256) (q : Fin 1024) : Value.ix7_1 (ix2 p q) = ix2 p (col 1024 q) := funext fun a => by
  match a with | ⟨0, _⟩ => rfl | ⟨1, _⟩ => exact Fin.ext (Nat.add_comm _ _)
theorem at_cell7 (p : Fin 256) (q : Fin 1024) : Value.ix7_2 (ix2 p q) = ix2 p q := funext fun a => by
  match a with | ⟨0, _⟩ => rfl | ⟨1, _⟩ => rfl
theorem at_input7 (p : Fin 256) (q : Fin 1024) : Value.ix7_3 (ix2 p q) = ix2 p (col 0 q) := funext fun a => by
  match a with | ⟨0, _⟩ => rfl | ⟨1, _⟩ => exact Fin.ext (Nat.zero_add _).symm
theorem at_cand7 (p : Fin 256) (q : Fin 1024) : Value.ix7_4 (ix2 p q) = ix2 p (col 2048 q) := funext fun a => by
  match a with | ⟨0, _⟩ => rfl | ⟨1, _⟩ => exact Fin.ext (Nat.add_comm _ _)
theorem at_forget8 (p : Fin 256) (q : Fin 1024) : Value.ix8_0 (ix2 p q) = ix2 p (col 1024 q) := funext fun a => by
  match a with | ⟨0, _⟩ => rfl | ⟨1, _⟩ => exact Fin.ext (Nat.add_comm _ _)
theorem at_cell8 (p : Fin 256) (q : Fin 1024) : Value.ix8_1 (ix2 p q) = ix2 p q := funext fun a => by
  match a with | ⟨0, _⟩ => rfl | ⟨1, _⟩ => rfl
theorem at_input8 (p : Fin 256) (q : Fin 1024) : Value.ix8_2 (ix2 p q) = ix2 p (col 0 q) := funext fun a => by
  match a with | ⟨0, _⟩ => rfl | ⟨1, _⟩ => exact Fin.ext (Nat.zero_add _).symm
theorem at_cand8 (p : Fin 256) (q : Fin 1024) : Value.ix8_3 (ix2 p q) = ix2 p (col 2048 q) := funext fun a => by
  match a with | ⟨0, _⟩ => rfl | ⟨1, _⟩ => exact Fin.ext (Nat.add_comm _ _)

/-- The output-gate block. -/
theorem outBlock_eq (hB : RowBlock P0 P1 P5 P2 P3 P4 x h c wx wh bx bh row) (p : Fin 256) (q : Fin 1024) :
    Value.E6 (F := Ideal) P0 P1 P2 P3 P4 (ix2 p q) = outGate x h wx wh bx bh (ix2 (row p) q) := by
  show FloatOps.logistic (k0_pay1 (F := Ideal) P0 P1 P2 P3 P4 (Value.ix6_0 (ix2 p q))) = _
  rw [at_out6, gates_pre hB]
  rfl

/-- The new-cell-state block. -/
theorem cellBlock_eq (hB : RowBlock P0 P1 P5 P2 P3 P4 x h c wx wh bx bh row) (p : Fin 256) (q : Fin 1024) :
    Value.E8 (F := Ideal) P0 P1 P2 P3 P4 P5 (ix2 p q) = cellNew x h c wx wh bx bh (ix2 (row p) q) := by
  show FloatOps.addf (FloatOps.mulf (FloatOps.logistic (k0_pay1 (F := Ideal) P0 P1 P2 P3 P4 (Value.ix8_0 (ix2 p q)))) (P5 (Value.ix8_1 (ix2 p q))))
      (FloatOps.mulf (FloatOps.logistic (k0_pay1 (F := Ideal) P0 P1 P2 P3 P4 (Value.ix8_2 (ix2 p q)))) (FloatOps.tanh (k0_pay1 (F := Ideal) P0 P1 P2 P3 P4 (Value.ix8_3 (ix2 p q))))) = _
  rw [at_forget8, at_cell8, at_input8, at_cand8, gates_pre hB, gates_pre hB, gates_pre hB, hB.hc]
  rfl

/-- The new-hidden-state block. -/
theorem hidBlock_eq (hB : RowBlock P0 P1 P5 P2 P3 P4 x h c wx wh bx bh row) (p : Fin 256) (q : Fin 1024) :
    Value.E7 (F := Ideal) P0 P1 P2 P3 P4 P5 (ix2 p q) = hidNew x h c wx wh bx bh (ix2 (row p) q) := by
  show FloatOps.mulf (FloatOps.logistic (k0_pay1 (F := Ideal) P0 P1 P2 P3 P4 (Value.ix7_0 (ix2 p q))))
      (FloatOps.tanh (FloatOps.addf (FloatOps.mulf (FloatOps.logistic (k0_pay1 (F := Ideal) P0 P1 P2 P3 P4 (Value.ix7_1 (ix2 p q)))) (P5 (Value.ix7_2 (ix2 p q))))
        (FloatOps.mulf (FloatOps.logistic (k0_pay1 (F := Ideal) P0 P1 P2 P3 P4 (Value.ix7_3 (ix2 p q)))) (FloatOps.tanh (k0_pay1 (F := Ideal) P0 P1 P2 P3 P4 (Value.ix7_4 (ix2 p q))))))) = _
  rw [at_out7, at_forget7, at_cell7, at_input7, at_cand7, gates_pre hB, gates_pre hB, gates_pre hB, gates_pre hB, hB.hc]
  rfl

end Cert.LstmCell.Ker

end
-- ==== Proof.Arrays.lean ====
/-
  The kernel's three result arrays, as the LSTM cell of Spec.lean on the argument arrays.

  The grid has 32 points; point t works on rows 256·t … 256·t+255. There the x, h and c windows hold those rows of
  their arrays; the two weight windows hold the whole weight arrays (narrowed to a shorter float format before the
  region, which changes nothing on the extended reals); the bias window holds the one row bx + bh. So the loads of
  point t are a row block in the sense of Gates.lean, each result block is the cell's value on those rows
  (BlockValues.lean), and the 32 result blocks tile each result array.
-/
import proofs.«407669_j62964220559530_3_alg».proof.Proof.Gen.KernelIdeal.Value
import proofs.«407669_j62964220559530_3_alg».proof.Proof.BlockValues
import Idealize.ShloMosaic.Lib.StableHlo.Run
import Idealize.ShloMosaic.Lib.Pipeline.Value
import Idealize.ShloMosaic.Lib.ValueIdx

set_option maxRecDepth 16384

noncomputable section

namespace Cert.LstmCell.Ker

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.LstmCell

variable (m : (ℓ : Loc nD τ sig) → Buf (Elt Ideal) ℓ) (ρ : Dev nD → PrngReg)

/-! ### Core `c`'s argument arrays -/

abbrev argX (c : Dev nD) : FVec Ideal Act .f32 := m ((c : Thread nD τ).loc main_arg0)
abbrev argH (c : Dev nD) : FVec Ideal Act .f32 := m ((c : Thread nD τ).loc main_arg1)
abbrev argC (c : Dev nD) : FVec Ideal Act .f32 := m ((c : Thread nD τ).loc main_arg2)
abbrev argWx (c : Dev nD) : FVec Ideal Wgt .f32 := m ((c : Thread nD τ).loc main_arg3)
abbrev argWh (c : Dev nD) : FVec Ideal Wgt .f32 := m ((c : Thread nD τ).loc main_arg4)
abbrev argBx (c : Dev nD) : FVec Ideal Bia .f32 := m ((c : Thread nD τ).loc main_arg5)
abbrev argBh (c : Dev nD) : FVec Ideal Bia .f32 := m ((c : Thread nD τ).loc main_arg6)

/-! ### The arrays written before the region -/

/-- The first weight window's array is the first weight argument. -/
theorem staged_wx (c : Dev nD) : (V m c main_v2 : S1024x4096.Idx → EReal) = argWx m c := by
  dsimp only [V, hostOps0]; after_results; rfl

/-- The second weight window's array is the second weight argument. -/
theorem staged_wh (c : Dev nD) : (V m c main_v3 : S1024x4096.Idx → EReal) = argWh m c := by
  dsimp only [V, hostOps0]; after_results; rfl

/-- The bias window's array is the row of the two biases' entrywise sums. -/
theorem staged_bias (c : Dev nD) (j : Fin 4096) :
    (V m c main_v1 : S1x4096.Idx → EReal) (ix2 (0 : Fin 1) j) = argBx m c (ix1 j) + argBh m c (ix1 j) := by
  have e : (V m c main_v1 : S1x4096.Idx → EReal)
      = shapeCast S1x4096 (addf (argBx m c) (argBh m c)) shapeCasts_S4096_S1x4096 := by
    dsimp only [V, hostOps0]; after_results; rfl
  rw [e]
  refine (shapeCast_apply _ _ (ix2 (0 : Fin 1) j) (ix1 j) ?_).trans rfl
  rw [Shape.rowMajor_val_two, Shape.rowMajor_val_one]
  show j.val = 0 * 4096 + j.val
  omega

/-! ### The index maps, decided over the 32 points: row windows sit at block (t, 0), whole-array windows at (0, 0) -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The array row that block row `p` of point `t` is. -/
def rowOf (t : Fin cfg0.N) (p : Fin 256) : Fin 8192 :=
  ⟨t.val * 256 + p.val, by have ht : t.val < 32 := t.isLt; have := p.isLt; omega⟩

/-- The loads of point `t` are the row block `rowOf t` of the argument arrays. -/
theorem rowBlock (c : Dev nD) (t : Fin cfg0.N) :
    RowBlock (iblk m c 0 t) (iblk m c 1 t) (iblk m c 2 t) (iblk m c 3 t) (iblk m c 4 t) (iblk m c 5 t)
      (argX m c) (argH m c) (argC m c) (argWx m c) (argWh m c) (argBx m c) (argBh m c) (rowOf t) := by
  obtain ⟨a00, a01, a10, a11, a20, a21, a30, a31, a40, a41, a50, a51, -⟩ := idx_facts t
  refine ⟨?_, ?_, ?_, ?_, ?_, ?_⟩
  · intro p k
    show V m c main_arg0 (((cfg0.win 0).blk t).view.emb (ix2 p k)) = argX m c (ix2 (rowOf t p) k)
    refine (congrFun (V_main_arg0 m c) _).trans ?_
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 1024 + 1 * k.val = k.val; omega
  · intro p k
    show V m c main_arg1 (((cfg0.win 1).blk t).view.emb (ix2 p k)) = argH m c (ix2 (rowOf t p) k)
    refine (congrFun (V_main_arg1 m c) _).trans ?_
    refine congrArg _ (funext fun a => Fin.ext ?_)
    match a with
    | ⟨0, _⟩ => show win0_1.index t (0 : Fin 2) * 256 + 1 * p.val = t.val * 256 + p.val; omega
    | ⟨1, _⟩ => show win0_1.index t (1 : Fin 2) * 1024 + 1 * k.val = k.val; omega
  · intro p q
    show V m c main_arg2 (((cfg0.win 2).blk t).view.emb (ix2 p q)) = argC m c (ix2 (rowOf t p) q)
    refine (congrFun (V_main_arg2 m c) _).trans ?_
    refine congrArg _ (funext fun a => Fin.ext ?_)
    match a with
    | ⟨0, _⟩ => show win0_2.index t (0 : Fin 2) * 256 + 1 * p.val = t.val * 256 + p.val; omega
    | ⟨1, _⟩ => show win0_2.index t (1 : Fin 2) * 1024 + 1 * q.val = q.val; omega
  · intro k j
    show V m c main_v2 (((cfg0.win 3).blk t).view.emb (ix2 k j)) = argWx m c (ix2 k j)
    refine (congrFun (staged_wx m c) _).trans ?_
    refine congrArg _ (funext fun a => Fin.ext ?_)
    match a with
    | ⟨0, _⟩ => show win0_3.index t (0 : Fin 2) * 1024 + 1 * k.val = k.val; omega
    | ⟨1, _⟩ => show win0_3.index t (1 : Fin 2) * 4096 + 1 * j.val = j.val; omega
  · intro k j
    show V m c main_v3 (((cfg0.win 4).blk t).view.emb (ix2 k j)) = argWh m c (ix2 k j)
    refine (congrFun (staged_wh m c) _).trans ?_
    refine congrArg _ (funext fun a => Fin.ext ?_)
    match a with
    | ⟨0, _⟩ => show win0_4.index t (0 : Fin 2) * 1024 + 1 * k.val = k.val; omega
    | ⟨1, _⟩ => show win0_4.index t (1 : Fin 2) * 4096 + 1 * j.val = j.val; omega
  · intro j
    have e : ((cfg0.win 5).blk t).view.emb (ix2 (0 : Fin 1) j) = ix2 (0 : Fin 1) j := funext fun a => Fin.ext (by
      match a with
      | ⟨0, _⟩ => show win0_5.index t (0 : Fin 2) * 1 + 1 * ((0 : Fin 1) : ℕ) = ((0 : Fin 1) : ℕ); omega
      | ⟨1, _⟩ => show win0_5.index t (1 : Fin 2) * 4096 + 1 * j.val = j.val; omega)
    show V m c main_v1 (((cfg0.win 5).blk t).view.emb (ix2 (0 : Fin 1) j)) = _
    rw [e]
    exact staged_bias m c j

/-! ### What point `t` writes back is block `t` of the cell's three functions -/

theorem hz : (![0, 0] : Fin 2 → Nat) = fun _ => 0 := funext fun a => by fin_cases a <;> rfl

/-- The first result window: the output gate. -/
theorem flushed6_eq (c : Dev nD) (t : Fin cfg0.N) :
    (dats m 0 c).flushed 6 t = ((cfg0.win 6).blk t).view.read (Elt Ideal)
      (outGate (argX m c) (argH m c) (argWx m c) (argWh m c) (argBx m c) (argBh m c)) := by
  obtain ⟨-, -, -, -, -, -, -, -, -, -, -, -, a60, a61, -⟩ := idx_facts t
  rw [Value.flushed6]
  unfold out0_6
  simp only [View.ld_unit_zero (S := S256x1024) hz, View.ld_unit_zero (S := S1024x4096) hz, View.ld_unit_zero (S := S1x4096) hz]
  funext y
  obtain ⟨p, q, rfl⟩ : ∃ (p : Fin 256) (q : Fin 1024), y = ix2 p q := ⟨y 0, y 1, eq_ix2 (n0 := 256) (n1 := 1024) y⟩
  show View.canon ([⟨r0_0, k0_pay2 (F := Ideal) (iblk m c 0 t) (iblk m c 1 t) (iblk m c 3 t) (iblk m c 4 t) (iblk m c 5 t)⟩] : List (View.Piece (Elt Ideal) S256x1024 .f32)) (ix2 p q)
    = outGate (argX m c) (argH m c) (argWx m c) (argWh m c) (argBx m c) (argBh m c) (((cfg0.win 6).blk t).view.emb (ix2 p q))
  refine (Value.canon6_eq _ _ _ _ _ _).trans ?_
  refine (outBlock_eq (rowBlock m c t) p q).trans ?_
  refine congrArg _ (funext fun a => Fin.ext ?_)
  match a with
  | ⟨0, _⟩ => show t.val * 256 + p.val = win0_6.index t (0 : Fin 2) * 256 + 1 * p.val; omega
  | ⟨1, _⟩ => show q.val = win0_6.index t (1 : Fin 2) * 1024 + 1 * q.val; omega

/-- The second result window: the new hidden state. -/
theorem flushed7_eq (c : Dev nD) (t : Fin cfg0.N) :
    (dats m 0 c).flushed 7 t = ((cfg0.win 7).blk t).view.read (Elt Ideal)
      (hidNew (argX m c) (argH m c) (argC m c) (argWx m c) (argWh m c) (argBx m c) (argBh m c)) := by
  obtain ⟨-, -, -, -, -, -, -, -, -, -, -, -, -, -, a70, a71, -⟩ := idx_facts t
  rw [Value.flushed7]
  unfold out0_7
  simp only [View.ld_unit_zero (S := S256x1024) hz, View.ld_unit_zero (S := S1024x4096) hz, View.ld_unit_zero (S := S1x4096) hz]
  funext y
  obtain ⟨p, q, rfl⟩ : ∃ (p : Fin 256) (q : Fin 1024), y = ix2 p q := ⟨y 0, y 1, eq_ix2 (n0 := 256) (n1 := 1024) y⟩
  show View.canon ([⟨r0_0, k0_pay4 (F := Ideal) (iblk m c 0 t) (iblk m c 1 t) (iblk m c 3 t) (iblk m c 4 t) (iblk m c 5 t) (iblk m c 2 t)⟩] : List (View.Piece (Elt Ideal) S256x1024 .f32)) (ix2 p q)
    = hidNew (argX m c) (argH m c) (argC m c) (argWx m c) (argWh m c) (argBx m c) (argBh m c) (((cfg0.win 7).blk t).view.emb (ix2 p q))
  refine (Value.canon7_eq _ _ _ _ _ _ _).trans ?_
  refine (hidBlock_eq (rowBlock m c t) p q).trans ?_
  refine congrArg _ (funext fun a => Fin.ext ?_)
  match a with
  | ⟨0, _⟩ => show t.val * 256 + p.val = win0_7.index t (0 : Fin 2) * 256 + 1 * p.val; omega
  | ⟨1, _⟩ => show q.val = win0_7.index t (1 : Fin 2) * 1024 + 1 * q.val; omega

/-- The third result window: the new cell state. -/
theorem flushed8_eq (c : Dev nD) (t : Fin cfg0.N) :
    (dats m 0 c).flushed 8 t = ((cfg0.win 8).blk t).view.read (Elt Ideal)
      (cellNew (argX m c) (argH m c) (argC m c) (argWx m c) (argWh m c) (argBx m c) (argBh m c)) := by
  obtain ⟨-, -, -, -, -, -, -, -, -, -, -, -, -, -, -, -, a80, a81⟩ := idx_facts t
  rw [Value.flushed8]
  unfold out0_8
  simp only [View.ld_unit_zero (S := S256x1024) hz, View.ld_unit_zero (S := S1024x4096) hz, View.ld_unit_zero (S := S1x4096) hz]
  funext y
  obtain ⟨p, q, rfl⟩ : ∃ (p : Fin 256) (q : Fin 1024), y = ix2 p q := ⟨y 0, y 1, eq_ix2 (n0 := 256) (n1 := 1024) y⟩
  show View.canon ([⟨r0_0, k0_pay3 (F := Ideal) (iblk m c 0 t) (iblk m c 1 t) (iblk m c 3 t) (iblk m c 4 t) (iblk m c 5 t) (iblk m c 2 t)⟩] : List (View.Piece (Elt Ideal) S256x1024 .f32)) (ix2 p q)
    = cellNew (argX m c) (argH m c) (argC m c) (argWx m c) (argWh m c) (argBx m c) (argBh m c) (((cfg0.win 8).blk t).view.emb (ix2 p q))
  refine (Value.canon8_eq _ _ _ _ _ _ _).trans ?_
  refine (cellBlock_eq (rowBlock m c t) p q).trans ?_
  refine congrArg _ (funext fun a => Fin.ext ?_)
  match a with
  | ⟨0, _⟩ => show t.val * 256 + p.val = win0_8.index t (0 : Fin 2) * 256 + 1 * p.val; omega
  | ⟨1, _⟩ => show q.val = win0_8.index t (1 : Fin 2) * 1024 + 1 * q.val; omega

/-! ### The 32 blocks tile each result array: row r is in the block of point r / 256 -/

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_0).slice (win0_6.rect t)).set ↔ _
  rw [View.set_slice_whole, Rect.mem_set_unit]
  exact Iff.rfl

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v4_1).slice (win0_7.rect t)).set ↔ _
  rw [View.set_slice_whole, Rect.mem_set_unit]
  exact Iff.rfl

theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v4_2).slice (win0_8.rect t)).set ↔ _
  rw [View.set_slice_whole, Rect.mem_set_unit]
  exact Iff.rfl

/-- The point whose block holds array row `r`. -/
def pointOf (i : S8192x1024.Idx) : Fin cfg0.N :=
  ⟨(i 0).val / 256, by have hi0 : (i 0).val < 8192 := (i 0).isLt; show (i 0).val / 256 < 32; omega⟩

theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have ht : (pointOf i).val = (i 0).val / 256 := rfl
  obtain ⟨-, -, -, -, -, -, -, -, -, -, -, -, a60, a61, -⟩ := idx_facts (pointOf i)
  refine ⟨pointOf i, flush0_6 _, ?_⟩
  rw [mem_blk6]
  intro a
  match a with
  | ⟨0, _⟩ => show win0_6.index (pointOf i) (0 : Fin 2) * 256 ≤ (i 0).val ∧ (i 0).val < win0_6.index (pointOf i) (0 : Fin 2) * 256 + 256; omega
  | ⟨1, _⟩ => show win0_6.index (pointOf i) (1 : Fin 2) * 1024 ≤ (i 1).val ∧ (i 1).val < win0_6.index (pointOf i) (1 : Fin 2) * 1024 + 1024; omega

theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have ht : (pointOf i).val = (i 0).val / 256 := rfl
  obtain ⟨-, -, -, -, -, -, -, -, -, -, -, -, -, -, a70, a71, -⟩ := idx_facts (pointOf i)
  refine ⟨pointOf i, flush0_7 _, ?_⟩
  rw [mem_blk7]
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega

theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have ht : (pointOf i).val = (i 0).val / 256 := rfl
  obtain ⟨-, -, -, -, -, -, -, -, -, -, -, -, -, -, -, -, a80, a81⟩ := idx_facts (pointOf i)
  refine ⟨pointOf i, flush0_8 _, ?_⟩
  rw [mem_blk8]
  intro a
  match a with
  | ⟨0, _⟩ => show win0_8.index (pointOf i) (0 : Fin 2) * 256 ≤ (i 0).val ∧ (i 0).val < win0_8.index (pointOf i) (0 : Fin 2) * 256 + 256; omega
  | ⟨1, _⟩ => show win0_8.index (pointOf i) (1 : Fin 2) * 1024 ≤ (i 1).val ∧ (i 1).val < win0_8.index (pointOf i) (1 : Fin 2) * 1024 + 1024; omega

/-! ### The result arrays after the run -/

theorem final6 (c : Dev nD) : (dats m 0 c).arrAt 6 cfg0.N
    = outGate (argX m c) (argH m c) (argWx m c) (argWh m c) (argBx m c) (argBh m c) :=
  (dats m 0 c).arrAt_eq_of_cover 6 _ (fun t _ => flushed6_eq m c t) cover6

theorem final7 (c : Dev nD) : (dats m 0 c).arrAt 7 cfg0.N
    = hidNew (argX m c) (argH m c) (argC m c) (argWx m c) (argWh m c) (argBx m c) (argBh m c) :=
  (dats m 0 c).arrAt_eq_of_cover 7 _ (fun t _ => flushed7_eq m c t) cover7

theorem final8 (c : Dev nD) : (dats m 0 c).arrAt 8 cfg0.N
    = cellNew (argX m c) (argH m c) (argC m c) (argWx m c) (argWh m c) (argBx m c) (argBh m c) :=
  (dats m 0 c).arrAt_eq_of_cover 8 _ (fun t _ => flushed8_eq m c t) cover8

/-- The kernel's run: it ends with the output gate, the new hidden state and the new cell state of its arguments in
    its three result arrays, and the arguments unchanged. -/
theorem run : θ_run defs (onTc (τ := τ) (main (F := Ideal))) ⟨m, fun _ => 0, ρ⟩ fun r => ∀ c : Dev nD,
      r.2.mem ((c : Thread nD τ).loc main_v4_0) = outGate (argX m c) (argH m c) (argWx m c) (argWh m c) (argBx m c) (argBh m c)
      ∧ r.2.mem ((c : Thread nD τ).loc main_v4_1) = hidNew (argX m c) (argH m c) (argC m c) (argWx m c) (argWh m c) (argBx m c) (argBh m c)
      ∧ r.2.mem ((c : Thread nD τ).loc main_v4_2) = cellNew (argX m c) (argH m c) (argC m c) (argWx m c) (argWh m c) (argBx m c) (argBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c),
      (h c).2.2.1.trans (final8 m c), (h c).2.2.2⟩)
    (Value.run_blocks m ρ)

end Cert.LstmCell.Ker

end
-- ==== Proof.RefSpec.lean ====
/-
  The reference computes the LSTM cell of Spec.lean.

  Read one operation at a time, its pre-activation stage at index (r, j) is the two dot products' sums plus the
  broadcast bias sum, which is `pre r j`; each gate is a slice of that stage at a column offset; and the reference spells the
  logistic function as 1 / (1 + exp(−z)) in host operations, which is the logistic function on every extended real.
-/
import proofs.«407669_j62964220559530_3_alg».proof.Proof.Gen.ReferenceIdeal.Read
import proofs.«407669_j62964220559530_3_alg».proof.Proof.Spec

noncomputable section

namespace Cert.LstmCell.Ref

open Idealize.ShloMosaic Idealize.ShloMosaic.ValueIdx Cert.ReferenceIdeal Cert.ReferenceIdeal.Read Cert.LstmCell

variable (x h c : FVec Ideal Act .f32) (wx wh : FVec Ideal Wgt .f32) (bx bh : FVec Ideal Bia .f32)

/-- The pre-activation stage at (r, j) is `pre r j`. -/
theorem stage_pre (i : Pre.Idx) :
    val_main_v6 (F := Ideal) x h wx wh bx bh i = pre x h wx wh bx bh (i 0) (i 1) := by
  have el0 : ∀ k, lidx_main_v0 i k = ix2 (i 0) k := fun k => funext fun a => by
    match a with | ⟨0, _⟩ => rfl | ⟨1, _⟩ => rfl
  have er0 : ∀ k, ridx_main_v0 i k = ix2 k (i 1) := fun k => funext fun a => by
    match a with | ⟨0, _⟩ => rfl | ⟨1, _⟩ => rfl
  have el1 : ∀ k, lidx_main_v1 i k = ix2 (i 0) k := fun k => funext fun a => by
    match a with | ⟨0, _⟩ => rfl | ⟨1, _⟩ => rfl
  have er1 : ∀ k, ridx_main_v1 i k = ix2 k (i 1) := fun k => funext fun a => by
    match a with | ⟨0, _⟩ => rfl | ⟨1, _⟩ => rfl
  have eb : idx_main_v4 (idx_main_v5 i) = ix1 (i 1) := funext fun a => by
    match a with | ⟨0, _⟩ => rfl
  rw [val_main_v6_apply, val_main_v2_apply, val_main_v0_apply, val_main_v1_apply, val_main_v5_apply,
    val_main_v4_apply, val_main_v3_apply, eb]
  simp only [el0, er0, el1, er1, Ideal.addf_def]
  rfl

/-- A gate's slice reads the pre-activation stage in the same row, at the gate's column offset. -/
theorem row_v7 (i : Act.Idx) : idx_main_v7 i 0 = i 0 := rfl
theorem col_v7 (i : Act.Idx) : idx_main_v7 i 1 = col 0 (i 1) := Fin.ext (Nat.zero_add _).symm
theorem row_v8 (i : Act.Idx) : idx_main_v8 i 0 = i 0 := rfl
theorem col_v8 (i : Act.Idx) : idx_main_v8 i 1 = col 1024 (i 1) := rfl
theorem row_v9 (i : Act.Idx) : idx_main_v9 i 0 = i 0 := rfl
theorem col_v9 (i : Act.Idx) : idx_main_v9 i 1 = col 2048 (i 1) := rfl
theorem row_v10 (i : Act.Idx) : idx_main_v10 i 0 = i 0 := rfl
theorem col_v10 (i : Act.Idx) : idx_main_v10 i 1 = col 3072 (i 1) := rfl

/-- The first result is the output gate. -/
theorem out_eq : val_main_v29 (F := Ideal) x h wx wh bx bh = outGate x h wx wh bx bh := by
  funext i
  rw [val_main_v29_apply, val_main_v28_apply, val_main_cst_4_apply, val_main_v27_apply, val_main_v26_apply,
    val_main_cst_3_apply, val_main_v25_apply, val_main_v24_apply, val_main_v10_apply, stage_pre, row_v10, col_v10]
  simp only [Ideal.hostDivf_def, Ideal.addf_def, Ideal.hostUnary_exp_def, Ideal.hostNegf_def, Ideal.negf_def,
    Ideal.ofBits_def]
  exact logistic_spelt _

/-- The third result is the new cell state. -/
theorem cell_eq : val_main_v32 (F := Ideal) x h c wx wh bx bh = cellNew x h c wx wh bx bh := by
  funext i
  rw [val_main_v32_apply, val_main_v30_apply, val_main_v22_apply, val_main_v21_apply, val_main_cst_2_apply,
    val_main_v20_apply, val_main_v19_apply, val_main_cst_1_apply, val_main_v18_apply, val_main_v17_apply,
    val_main_v8_apply, val_main_v31_apply, val_main_v16_apply, val_main_v15_apply, val_main_cst_0_apply,
    val_main_v14_apply, val_main_v13_apply, val_main_cst_apply, val_main_v12_apply, val_main_v11_apply,
    val_main_v7_apply, val_main_v23_apply, val_main_v9_apply]
  simp only [stage_pre, row_v7, col_v7, row_v8, col_v8, row_v9, col_v9]
  simp only [Ideal.hostDivf_def, Ideal.addf_def, Ideal.mulf_def, Ideal.hostUnary_exp_def, Ideal.hostUnary_tanh_def,
    Ideal.hostNegf_def, Ideal.negf_def, Ideal.ofBits_def, logistic_spelt]
  rfl

/-- The second result is the new hidden state. -/
theorem hid_eq : val_main_v34 (F := Ideal) x h c wx wh bx bh = hidNew x h c wx wh bx bh := by
  funext i
  rw [val_main_v34_apply, val_main_v33_apply, out_eq, cell_eq]
  simp only [Ideal.mulf_def, Ideal.hostUnary_tanh_def]
  rfl

end Cert.LstmCell.Ref

end
-- ==== Proof.lean ====
/-
  An LSTM cell step: the kernel against its reference, on the extended reals.

  Both programs take x, h, c (8192 × 1024), two weight arrays (1024 × 4096) and two biases (4096) and return the output
  gate, the new hidden state and the new cell state (Proof/Spec.lean states the three as functions of the arguments).

  The reference forms the pre-activations x·Wx + h·Wh + (bx + bh) over the whole batch, slices the four gates and
  spells the logistic function as 1 / (1 + exp(−z)) (Proof/RefSpec.lean). The kernel walks the batch in 32 blocks of
  256 rows: per block it multiplies the x and h rows by the weight arrays (narrowed to a shorter float format, the
  identity here) into zero accumulators, adds the two products and the bias row, and applies the logistic function
  and tanh to the gate columns (Proof/Gates.lean, Proof/BlockValues.lean); its 32 result blocks tile the three result
  arrays (Proof/Arrays.lean). A sum over the contracted axis is the same sum however the rows are blocked, and the
  logistic function is 1 / (1 + exp(−z)) at every extended real, so the two programs compute the same three arrays;
  no law used here needs the inputs to be finite.

  The three frames are the generated ones (the reference's is its generated run with the results dropped), and the
  idealization rewrote no operation, so its conjunct is `True`.
-/
import proofs.«407669_j62964220559530_3_alg».proof.Defs
import proofs.«407669_j62964220559530_3_alg».proof.Proof.Gen.Kernel
import proofs.«407669_j62964220559530_3_alg».proof.Proof.Gen.Kernel.Skeleton
import proofs.«407669_j62964220559530_3_alg».proof.Proof.Gen.Kernel.Launch
import proofs.«407669_j62964220559530_3_alg».proof.Proof.Gen.Kernel.Points
import proofs.«407669_j62964220559530_3_alg».proof.Proof.Gen.Kernel.Frame
import proofs.«407669_j62964220559530_3_alg».proof.Proof.Gen.KernelIdeal
import proofs.«407669_j62964220559530_3_alg».proof.Proof.Gen.KernelIdeal.Skeleton
import proofs.«407669_j62964220559530_3_alg».proof.Proof.Gen.KernelIdeal.Launch
import proofs.«407669_j62964220559530_3_alg».proof.Proof.Gen.KernelIdeal.Points
import proofs.«407669_j62964220559530_3_alg».proof.Proof.Gen.KernelIdeal.Frame
import proofs.«407669_j62964220559530_3_alg».proof.Proof.Gen.ReferenceIdeal
import proofs.«407669_j62964220559530_3_alg».proof.Proof.Gen.Pre_finite_inputs
import proofs.«407669_j62964220559530_3_alg».proof.Proof.Gen.KernelIdeal.Value
import proofs.«407669_j62964220559530_3_alg».proof.Proof.Gen.ReferenceIdeal.Run
import proofs.«407669_j62964220559530_3_alg».proof.Proof.Gen.ReferenceIdeal.Read
import proofs.«407669_j62964220559530_3_alg».proof.Proof.Arrays
import proofs.«407669_j62964220559530_3_alg».proof.Proof.RefSpec
import Idealize.ShloMosaic.Adequacy
import Idealize.ShloMosaic.Init

noncomputable section

namespace Cert.Proof

open Idealize.ShloMosaic Idealize.ShloMosaic.TcCoe Idealize.SL.Sem Cert.LstmCell

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the seven arguments both programs end with the output gate, the new hidden state and
    the new cell state of those arguments. -/
theorem algebraic : Cert.algebraic_KernelIdeal_ReferenceIdeal := by
  intro m ρ m' ρ' _ hagree
  refine ⟨fun c => outGate (Ker.argX m c) (Ker.argH m c) (Ker.argWx m c) (Ker.argWh m c) (Ker.argBx m c) (Ker.argBh m c),
    fun c => hidNew (Ker.argX m c) (Ker.argH m c) (Ker.argC m c) (Ker.argWx m c) (Ker.argWh m c) (Ker.argBx m c) (Ker.argBh m c),
    fun c => cellNew (Ker.argX m c) (Ker.argH m c) (Ker.argC m c) (Ker.argWx m c) (Ker.argWh m c) (Ker.argBx m c) (Ker.argBh m c),
    Ker.run m ρ, ?_⟩
  refine (θ_run Cert.ReferenceIdeal.defs _ _).mono (fun r h c => ?_) (Cert.ReferenceIdeal.Value.run (F := Ideal) m' ρ')
  obtain ⟨h0, h1, h2, hk⟩ := h c
  obtain ⟨e0, e1, e2, e3, e4, e5, e6⟩ := hagree c
  refine ⟨?_, ?_, ?_, hk⟩
  · rw [h0, Cert.ReferenceIdeal.Read.val_main_v29_eq, Ref.out_eq, e0, e1, e3, e4, e5, e6]
  · rw [h1, Cert.ReferenceIdeal.Read.val_main_v34_eq, Ref.hid_eq, e0, e1, e2, e3, e4, e5, e6]
  · rw [h2, Cert.ReferenceIdeal.Read.val_main_v32_eq, Ref.cell_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
